-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S1024x1024 : Shape := ⟨2, ![1024, 1024]⟩
abbrev S1024 : Shape := ⟨1, ![1024]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S32x512x1024 .f32) (main_arg1 : FVec F S1024x1024 .f32) (main_arg2 : FVec F S1024 .f32) (main_arg3 : FVec F S1024 .f32) (main_arg4 : FVec F S1024 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S32x512x1024 : Shape := ⟨3, ![32, 512, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 8
  | .smem => 0
  | _ => 0

abbrev bufTy : (tb : Table) → Fin (tcTables nBuf tb) → BufTy
  | .hbm, ⟨0, _⟩ => ⟨S32x512x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S32x512x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x512x1024_S16384x1024 : S32x512x1024.ShapeCasts S16384x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  shapeCasts_S16384x1024_S32x512x1024 : S16384x1024.ShapeCasts S32x512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_call0_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512x1024 : Shape := ⟨3, ![32, 512, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 8
  | .smem => 0
  | _ => 0

abbrev bufTy : (tb : Table) → Fin (tcTables nBuf tb) → BufTy
  | .hbm, ⟨0, _⟩ => ⟨S32x512x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024x1024, .f32⟩
  | .hbm, ⟨10, _⟩ => ⟨S16384x1024, .f32⟩
  | .hbm, ⟨11, _⟩ => ⟨S32x512x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x512x1024_S16384x1024 : S32x512x1024.ShapeCasts S16384x1024
  shapeCasts_S1024_S1x1024 : S1024.ShapeCasts S1x1024
  transposes_S1024x1024_S1024x1024_1_0 : S1024x1024.Transposes [1, 0] S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  shapeCasts_S16384x1024_S32x512x1024 : S16384x1024.ShapeCasts S32x512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.RowTiles.lean ====
/-
  A 16384 × 1024 array cut into 32 tiles of 512 consecutive rows, and the array obtained by applying one
  function of a tile to every tile: entry (r, c) of the result is entry (r mod 512, c) of the function's value
  on tile ⌊r / 512⌋.  Nothing here mentions a program; the two kernels' result arrays are both of this form.
-/
import Idealize.ShloMosaic.Lib.ValueIdx

namespace Cert.RowTiles

open Idealize.ShloMosaic Idealize.ShloMosaic.ValueIdx

/-- The array's shape: 16384 rows of 1024 lanes. -/
abbrev Arr : Shape := ⟨2, ![16384, 1024]⟩
/-- A tile's shape: 512 rows of 1024 lanes. -/
abbrev Tile : Shape := ⟨2, ![512, 1024]⟩

variable {α : Type}

/-- Tile `q` of an array: its rows `512 q … 512 q + 511`. -/
def rowTile (X : Arr.Idx → α) (q : Fin 32) : Tile.Idx → α := fun y =>
  X (ix2 (⟨512 * q.val + (y 0).val, by have := idx2_lt0 y; have := q.isLt; omega⟩ : Fin 16384)
         (⟨(y 1).val, idx2_lt1 y⟩ : Fin 1024))

/-- The array whose tile `q` is `f` of tile `q` of `X`, for every `q`. -/
def byRowTiles (f : (Tile.Idx → α) → (Tile.Idx → α)) (X : Arr.Idx → α) : Arr.Idx → α := fun i =>
  f (rowTile X (⟨(i 0).val / 512, by have := idx2_lt0 i; omega⟩ : Fin 32))
    (ix2 (⟨(i 0).val % 512, Nat.mod_lt _ (by norm_num)⟩ : Fin 512) (⟨(i 1).val, idx2_lt1 i⟩ : Fin 1024))

/-- Read at row `512 q + y₀`, lane `y₁`, it is `f` of tile `q` at `(y₀, y₁)`. -/
theorem byRowTiles_apply (f : (Tile.Idx → α) → (Tile.Idx → α)) (X : Arr.Idx → α) (q : Fin 32) (y : Tile.Idx)
    (i : Arr.Idx) (h0 : (i 0).val = 512 * q.val + (y 0).val) (h1 : (i 1).val = (y 1).val) :
    byRowTiles f X i = f (rowTile X q) y := by
  have hy := idx2_lt0 y
  have eq : (⟨(i 0).val / 512, by have := idx2_lt0 i; omega⟩ : Fin 32) = q := Fin.ext (by show (i 0).val / 512 = q.val; omega)
  have ey : ix2 (⟨(i 0).val % 512, Nat.mod_lt _ (by norm_num)⟩ : Fin 512) (⟨(i 1).val, idx2_lt1 i⟩ : Fin 1024) = y := by
    funext a
    match a with
    | ⟨0, _⟩ => exact Fin.ext (by show (i 0).val % 512 = (y 0).val; omega)
    | ⟨1, _⟩ => exact Fin.ext h1
  unfold byRowTiles
  rw [eq, ey]

end Cert.RowTiles
-- ==== Proof.KernelRun.lean ====
/-
  The idealized kernel's run, read as values.  Its one region walks the 32 row tiles of the reshaped input
  (tile `t` = rows `512 t … 512 t + 511` of the 16384 × 1024 array); at each tile the body stores ONE value, a
  function of that tile and of the four resident operands (the weight, the bias row, the two affine rows), into
  the same rows of the output.  So the output array is that function applied tile by tile, and the program's
  result is its reshape to 32 × 512 × 1024.
-/
import proofs.«123937_g2000002448584903_pallasbulk_881_1_alg».proof.Proof.Gen.KernelIdeal.Frame
import proofs.«123937_g2000002448584903_pallasbulk_881_1_alg».proof.Proof.RowTiles
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.RowTiles

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The body's one store covers the whole output tile, and each load reads a whole staged block: the tile it
    leaves is its payload of the five staged blocks. -/
theorem out_eq (x0 : Vec F S512x1024 .f32) (x1 : Vec F S1024x1024 .bf16) (x2 x3 x4 : Vec F S1x1024 .f32) :
    out0_5 x0 x1 x2 x3 x4 = k0_pay1 x0 x1 x2 x3 x4 := by
  unfold out0_5
  rw [View.canon_unit_zero hz]
  simp only [View.ld_unit_zero (S := S512x1024) hz, View.ld_unit_zero (S := S1024x1024) hz,
    View.ld_unit_zero (S := S1x1024) hz]

/-- The index maps over the grid: the input tile and the output tile are both at block row `t`, lane block 0;
    the four resident operands stay at block (0, 0). -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- A grid point as a tile number. -/
def tileNo (t : Fin cfg0.N) : Fin 32 := ⟨t.val, by have h := t.isLt; have hN : cfg0.N = 32 := N_0; omega⟩

/-- The reshaped input as the region finds it. -/
abbrev X (c : Dev nD) : Arr.Idx → Elt F .f32 := V m c main_call0_v0
/-- The resident operands as the region finds them: the weight, the bias row, the scale row, the shift row. -/
abbrev Wt (c : Dev nD) : Vec F S1024x1024 .bf16 := V m c main_call0_v2
abbrev Bias (c : Dev nD) : Vec F S1x1024 .f32 := V m c main_call0_v3
abbrev Gam (c : Dev nD) : Vec F S1x1024 .f32 := V m c main_call0_v4
abbrev Bet (c : Dev nD) : Vec F S1x1024 .f32 := V m c main_call0_v5

/-- The input window's block at point `t` is tile `t` of the reshaped input. -/
theorem iblk0_eq (c : Dev nD) (t : Fin cfg0.N) : (iblk m c 0 t : Vec F S512x1024 .f32) = rowTile (X m c) (tileNo t) := by
  obtain ⟨e0, e1, -⟩ := idx_facts t
  funext y
  unfold iblk
  rw [View.read_apply]
  show V m c main_call0_v0 _ = V m c main_call0_v0 _
  congr 1
  funext a
  apply Fin.ext
  match a with
  | ⟨0, _⟩ => show win0_0.index t (0 : Fin 2) * 512 + 1 * (y 0).val = 512 * t.val + (y 0).val; rw [e0]; omega
  | ⟨1, _⟩ => show win0_0.index t (1 : Fin 2) * 1024 + 1 * (y 1).val = (y 1).val; rw [e1]; omega

/-- A resident operand's block is its whole array, at every point. -/
theorem iblk1_eq (c : Dev nD) (t : Fin cfg0.N) : (iblk m c 1 t : Vec F S1024x1024 .bf16) = Wt m c := by
  obtain ⟨-, -, -, -, e0, e1, -⟩ := idx_facts t
  funext y
  unfold iblk
  rw [View.read_apply]
  show V m c main_call0_v2 _ = V m c main_call0_v2 _
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega
theorem iblk2_eq (c : Dev nD) (t : Fin cfg0.N) : (iblk m c 2 t : Vec F S1x1024 .f32) = Bias m c := by
  obtain ⟨-, -, -, -, -, -, e0, e1, -⟩ := idx_facts t
  funext y
  unfold iblk
  rw [View.read_apply]
  show V m c main_call0_v3 _ = V m c main_call0_v3 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega
theorem iblk3_eq (c : Dev nD) (t : Fin cfg0.N) : (iblk m c 3 t : Vec F S1x1024 .f32) = Gam m c := by
  obtain ⟨-, -, -, -, -, -, -, -, e0, e1, -⟩ := idx_facts t
  funext y
  unfold iblk
  rw [View.read_apply]
  show V m c main_call0_v4 _ = V m c main_call0_v4 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 1024 + 1 * (y 1).val = (y 1).val; rw [e1]; omega
theorem iblk4_eq (c : Dev nD) (t : Fin cfg0.N) : (iblk m c 4 t : Vec F S1x1024 .f32) = Bet m c := by
  obtain ⟨-, -, -, -, -, -, -, -, -, -, e0, e1⟩ := idx_facts t
  funext y
  unfold iblk
  rw [View.read_apply]
  show V m c main_call0_v5 _ = V m c main_call0_v5 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 1024 + 1 * (y 1).val = (y 1).val; rw [e1]; omega

/-- What the body makes of one input tile, the resident operands fixed. -/
abbrev tileFn (c : Dev nD) : (Tile.Idx → Elt F .f32) → (Tile.Idx → Elt F .f32) := fun x =>
  k0_pay1 x (Wt m c) (Bias m c) (Gam m c) (Bet m c)

/-- The output array the region leaves: the body's function tile by tile. -/
abbrev outArr (c : Dev nD) : Arr.Idx → Elt F .f32 := byRowTiles (tileFn m c) (X m c)

/-- What point `t` writes back is block `t` of that array. -/
theorem flushed_eq (c : Dev nD) (t : Fin cfg0.N) :
    (dats m 0 c).flushed 5 t = ((cfg0.win 5).blk t).view.read (Elt F) (outArr m c) := by
  obtain ⟨-, -, e0, e1, -⟩ := idx_facts t
  show (cfg0.win 5).cut (grid0.coords t) ((dats m 0 c).after 5 t) = _
  rw [after0_5, out_eq, iblk0_eq, iblk1_eq, iblk2_eq, iblk3_eq, iblk4_eq]
  funext j
  rw [View.read_apply]
  refine (byRowTiles_apply (tileFn m c) (X m c) (tileNo t) j _ ?_ ?_).symm
  · show win0_5.index t (0 : Fin 2) * 512 + 1 * (j 0).val = 512 * t.val + (j 0).val; rw [e0]; omega
  · show win0_5.index t (1 : Fin 2) * 1024 + 1 * (j 1).val = (j 1).val; rw [e1]; omega

/-- An index of the output array is in point `t`'s block iff each coordinate is in the block's range. -/
theorem mem_blk (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_call0_v6).slice (win0_5.rect t)).set ↔ _
  rw [View.set_slice_whole, Rect.mem_set_unit]
  exact Iff.rfl

/-- The 32 blocks tile the output array, so it ends holding `outArr`. -/
theorem final (c : Dev nD) : (dats m 0 c).arrAt 5 cfg0.N = outArr m c :=
  (dats m 0 c).arrAt_eq_of_cover 5 (outArr m c) (fun t _ => flushed_eq m c t) fun i => by
    have hi0 : (i 0).val < 16384 := (i 0).isLt
    have hi1 : (i 1).val < 1024 := (i 1).isLt
    have hN : cfg0.N = 32 := N_0
    let t : Fin cfg0.N := ⟨(i 0).val / 512, by rw [hN]; omega⟩
    obtain ⟨-, -, e0, e1, -⟩ := idx_facts t
    refine ⟨t, flush0_5 t, ?_⟩
    rw [mem_blk]
    intro a
    match a with
    | ⟨0, _⟩ => show win0_5.index t (0 : Fin 2) * 512 ≤ (i 0).val ∧ (i 0).val < win0_5.index t (0 : Fin 2) * 512 + 512
                rw [e0]; show (i 0).val / 512 * 512 ≤ (i 0).val ∧ (i 0).val < (i 0).val / 512 * 512 + 512; omega
    | ⟨1, _⟩ => show win0_5.index t (1 : Fin 2) * 1024 ≤ (i 1).val ∧ (i 1).val < win0_5.index t (1 : Fin 2) * 1024 + 1024
                rw [e1]; omega

/-! ## The host lines around the region -/

/-- Before the region the input is reshaped to 16384 × 1024, -/
theorem X_eq (c : Dev nD) : X m c = shapeCast S16384x1024 (m ((c : Thread nD τ).loc main_arg0)) shapeCasts_S32x512x1024_S16384x1024 := by
  show StableHlo.after (List.flatten [hostOps0]) (fun b => m (c, b)) (Proc.devRef .tc main_call0_v0) = _
  simp only [hostOps0, List.flatten_cons, List.flatten_nil, List.append_nil]
  after_results
  rfl
/-- the weight is transposed and rounded, -/
theorem Wt_eq (c : Dev nD) : Wt m c = truncf .bf16 (transpose S1024x1024 [1, 0] (m ((c : Thread nD τ).loc main_arg1)) transposes_S1024x1024_S1024x1024_1_0) bitsLt_bf16_f32 := by
  show StableHlo.after (List.flatten [hostOps0]) (fun b => m (c, b)) (Proc.devRef .tc main_call0_v2) = _
  simp only [hostOps0, List.flatten_cons, List.flatten_nil, List.append_nil]
  after_results
  rfl
/-- and the bias and the two affine vectors become rows. -/
theorem Bias_eq (c : Dev nD) : Bias m c = shapeCast S1x1024 (m ((c : Thread nD τ).loc main_arg2)) shapeCasts_S1024_S1x1024 := by
  show StableHlo.after (List.flatten [hostOps0]) (fun b => m (c, b)) (Proc.devRef .tc main_call0_v3) = _
  simp only [hostOps0, List.flatten_cons, List.flatten_nil, List.append_nil]
  after_results
  rfl
theorem Gam_eq (c : Dev nD) : Gam m c = shapeCast S1x1024 (m ((c : Thread nD τ).loc main_arg3)) shapeCasts_S1024_S1x1024 := by
  show StableHlo.after (List.flatten [hostOps0]) (fun b => m (c, b)) (Proc.devRef .tc main_call0_v4) = _
  simp only [hostOps0, List.flatten_cons, List.flatten_nil, List.append_nil]
  after_results
  rfl
theorem Bet_eq (c : Dev nD) : Bet m c = shapeCast S1x1024 (m ((c : Thread nD τ).loc main_arg4)) shapeCasts_S1024_S1x1024 := by
  show StableHlo.after (List.flatten [hostOps0]) (fun b => m (c, b)) (Proc.devRef .tc main_call0_v5) = _
  simp only [hostOps0, List.flatten_cons, List.flatten_nil, List.append_nil]
  after_results
  rfl

/-- The program's result as a function of five argument arrays: reshape, transpose and round, the body tile by tile,
    reshape back. -/
def result (a0 : Vec F S32x512x1024 .f32) (a1 : Vec F S1024x1024 .f32) (a2 a3 a4 : Vec F S1024 .f32) : Vec F S32x512x1024 .f32 :=
  shapeCast S32x512x1024
    (byRowTiles (fun x => k0_pay1 x
        (truncf .bf16 (transpose S1024x1024 [1, 0] a1 transposes_S1024x1024_S1024x1024_1_0) bitsLt_bf16_f32)
        (shapeCast S1x1024 a2 shapeCasts_S1024_S1x1024) (shapeCast S1x1024 a3 shapeCasts_S1024_S1x1024)
        (shapeCast S1x1024 a4 shapeCasts_S1024_S1x1024))
      (shapeCast S16384x1024 a0 shapeCasts_S32x512x1024_S16384x1024) : Vec F S16384x1024 .f32)
    shapeCasts_S16384x1024_S32x512x1024

/-- After the region the one host line reshapes the output array; so the result buffer ends at `result` of the arguments. -/
theorem tail_eq (c : Dev nD) :
    Pipeline.afterTail₀ cfgs (dats m) 0 (V0 m) [hostOps1] c main_v0
      = result (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v0) = _
  after_results
  have hA : Pipeline.withArrays spec0 c (V0 m c) (fun w => (dats m 0 c).arrAt w cfg0.N) (Proc.devRef .tc (Pipeline.arrRef spec0 5))
      = outArr m c :=
    (Pipeline.withArrays_arr spec0 launch0.win.arr_inj c _ _ 5).trans (final m c)
  have hO : outArr m c = (byRowTiles (fun x => k0_pay1 x
        (truncf .bf16 (transpose S1024x1024 [1, 0] (m ((c : Thread nD τ).loc main_arg1)) transposes_S1024x1024_S1024x1024_1_0) bitsLt_bf16_f32)
        (shapeCast S1x1024 (m ((c : Thread nD τ).loc main_arg2)) shapeCasts_S1024_S1x1024)
        (shapeCast S1x1024 (m ((c : Thread nD τ).loc main_arg3)) shapeCasts_S1024_S1x1024)
        (shapeCast S1x1024 (m ((c : Thread nD τ).loc main_arg4)) shapeCasts_S1024_S1x1024))
      (shapeCast S16384x1024 (m ((c : Thread nD τ).loc main_arg0)) shapeCasts_S32x512x1024_S16384x1024) : Vec F S16384x1024 .f32) := by
    show byRowTiles (fun x => k0_pay1 x (Wt m c) (Bias m c) (Gam m c) (Bet m c)) (X m c) = _
    rw [X_eq, Wt_eq, Bias_eq, Gam_eq, Bet_eq]
  exact congrArg (fun A : Vec F S16384x1024 .f32 => shapeCast S32x512x1024 A shapeCasts_S16384x1024_S32x512x1024) (hA.trans hO)

/-- The run, read: the result buffer at `result` of the argument arrays, the arguments unchanged. -/
theorem run : θ_run defs (onTc (τ := τ) (main (F := F))) ⟨m, fun _ => 0, ρ⟩ fun r => ∀ c : Dev nD,
      r.2.mem ((c.tc : Thread nD τ).loc main_v0)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.ReferenceRun.lean ====
/-
  The idealized reference's run, read as values.  It has the kernel's shape: one region over the 32 row tiles of
  the reshaped input, the body storing at each tile ONE value, a function of that tile and of the four resident
  operands (here the weight is transposed on the host and not rounded), into the same rows of the output; the
  output array is that function applied tile by tile, and the program's result is its reshape to 32 × 512 × 1024.
-/
import proofs.«123937_g2000002448584903_pallasbulk_881_1_alg».proof.Proof.Gen.ReferenceIdeal.Frame
import proofs.«123937_g2000002448584903_pallasbulk_881_1_alg».proof.Proof.RowTiles
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.ReferenceIdeal.Hand

open Cert.ReferenceIdeal Cert.ReferenceIdeal.Gen Cert.RowTiles

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The body's one store covers the whole output tile, and each load reads a whole staged block: the tile it
    leaves is its payload of the five staged blocks. -/
theorem out_eq (x0 : Vec F S512x1024 .f32) (x1 : Vec F S1024x1024 .f32) (x2 x3 x4 : Vec F S1x1024 .f32) :
    out0_5 x0 x1 x2 x3 x4 = k0_pay1 x0 x1 x2 x3 x4 := by
  unfold out0_5
  rw [View.canon_unit_zero hz]
  simp only [View.ld_unit_zero (S := S512x1024) hz, View.ld_unit_zero (S := S1024x1024) hz,
    View.ld_unit_zero (S := S1x1024) hz]

/-- The index maps over the grid: the input tile and the output tile are both at block row `t`, lane block 0;
    the four resident operands stay at block (0, 0). -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- A grid point as a tile number. -/
def tileNo (t : Fin cfg0.N) : Fin 32 := ⟨t.val, by have h := t.isLt; have hN : cfg0.N = 32 := N_0; omega⟩

/-- The reshaped input as the region finds it. -/
abbrev X (c : Dev nD) : Arr.Idx → Elt F .f32 := V m c main_v0
/-- The resident operands as the region finds them: the weight, the bias row, the scale row, the shift row. -/
abbrev Wt (c : Dev nD) : Vec F S1024x1024 .f32 := V m c main_v4
abbrev Bias (c : Dev nD) : Vec F S1x1024 .f32 := V m c main_v1
abbrev Gam (c : Dev nD) : Vec F S1x1024 .f32 := V m c main_v2
abbrev Bet (c : Dev nD) : Vec F S1x1024 .f32 := V m c main_v3

/-- The input window's block at point `t` is tile `t` of the reshaped input. -/
theorem iblk0_eq (c : Dev nD) (t : Fin cfg0.N) : (iblk m c 0 t : Vec F S512x1024 .f32) = rowTile (X m c) (tileNo t) := by
  obtain ⟨e0, e1, -⟩ := idx_facts t
  funext y
  unfold iblk
  rw [View.read_apply]
  show V m c main_v0 _ = V m c main_v0 _
  congr 1
  funext a
  apply Fin.ext
  match a with
  | ⟨0, _⟩ => show win0_0.index t (0 : Fin 2) * 512 + 1 * (y 0).val = 512 * t.val + (y 0).val; rw [e0]; omega
  | ⟨1, _⟩ => show win0_0.index t (1 : Fin 2) * 1024 + 1 * (y 1).val = (y 1).val; rw [e1]; omega

/-- A resident operand's block is its whole array, at every point. -/
theorem iblk1_eq (c : Dev nD) (t : Fin cfg0.N) : (iblk m c 1 t : Vec F S1024x1024 .f32) = Wt m c := by
  obtain ⟨-, -, -, -, e0, e1, -⟩ := idx_facts t
  funext y
  unfold iblk
  rw [View.read_apply]
  show V m c main_v4 _ = V m c main_v4 _
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega
theorem iblk2_eq (c : Dev nD) (t : Fin cfg0.N) : (iblk m c 2 t : Vec F S1x1024 .f32) = Bias m c := by
  obtain ⟨-, -, -, -, -, -, e0, e1, -⟩ := idx_facts t
  funext y
  unfold iblk
  rw [View.read_apply]
  show V m c main_v1 _ = V m c main_v1 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega
theorem iblk3_eq (c : Dev nD) (t : Fin cfg0.N) : (iblk m c 3 t : Vec F S1x1024 .f32) = Gam m c := by
  obtain ⟨-, -, -, -, -, -, -, -, e0, e1, -⟩ := idx_facts t
  funext y
  unfold iblk
  rw [View.read_apply]
  show V m c main_v2 _ = V m c main_v2 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 1024 + 1 * (y 1).val = (y 1).val; rw [e1]; omega
theorem iblk4_eq (c : Dev nD) (t : Fin cfg0.N) : (iblk m c 4 t : Vec F S1x1024 .f32) = Bet m c := by
  obtain ⟨-, -, -, -, -, -, -, -, -, -, e0, e1⟩ := idx_facts t
  funext y
  unfold iblk
  rw [View.read_apply]
  show V m c main_v3 _ = V m c main_v3 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 1024 + 1 * (y 1).val = (y 1).val; rw [e1]; omega

/-- What the body makes of one input tile, the resident operands fixed. -/
abbrev tileFn (c : Dev nD) : (Tile.Idx → Elt F .f32) → (Tile.Idx → Elt F .f32) := fun x =>
  k0_pay1 x (Wt m c) (Bias m c) (Gam m c) (Bet m c)

/-- The output array the region leaves: the body's function tile by tile. -/
abbrev outArr (c : Dev nD) : Arr.Idx → Elt F .f32 := byRowTiles (tileFn m c) (X m c)

/-- What point `t` writes back is block `t` of that array. -/
theorem flushed_eq (c : Dev nD) (t : Fin cfg0.N) :
    (dats m 0 c).flushed 5 t = ((cfg0.win 5).blk t).view.read (Elt F) (outArr m c) := by
  obtain ⟨-, -, e0, e1, -⟩ := idx_facts t
  show (cfg0.win 5).cut (grid0.coords t) ((dats m 0 c).after 5 t) = _
  rw [after0_5, out_eq, iblk0_eq, iblk1_eq, iblk2_eq, iblk3_eq, iblk4_eq]
  funext j
  rw [View.read_apply]
  refine (byRowTiles_apply (tileFn m c) (X m c) (tileNo t) j _ ?_ ?_).symm
  · show win0_5.index t (0 : Fin 2) * 512 + 1 * (j 0).val = 512 * t.val + (j 0).val; rw [e0]; omega
  · show win0_5.index t (1 : Fin 2) * 1024 + 1 * (j 1).val = (j 1).val; rw [e1]; omega

/-- An index of the output array is in point `t`'s block iff each coordinate is in the block's range. -/
theorem mem_blk (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v5).slice (win0_5.rect t)).set ↔ _
  rw [View.set_slice_whole, Rect.mem_set_unit]
  exact Iff.rfl

/-- The 32 blocks tile the output array, so it ends holding `outArr`. -/
theorem final (c : Dev nD) : (dats m 0 c).arrAt 5 cfg0.N = outArr m c :=
  (dats m 0 c).arrAt_eq_of_cover 5 (outArr m c) (fun t _ => flushed_eq m c t) fun i => by
    have hi0 : (i 0).val < 16384 := (i 0).isLt
    have hi1 : (i 1).val < 1024 := (i 1).isLt
    have hN : cfg0.N = 32 := N_0
    let t : Fin cfg0.N := ⟨(i 0).val / 512, by rw [hN]; omega⟩
    obtain ⟨-, -, e0, e1, -⟩ := idx_facts t
    refine ⟨t, flush0_5 t, ?_⟩
    rw [mem_blk]
    intro a
    match a with
    | ⟨0, _⟩ => show win0_5.index t (0 : Fin 2) * 512 ≤ (i 0).val ∧ (i 0).val < win0_5.index t (0 : Fin 2) * 512 + 512
                rw [e0]; show (i 0).val / 512 * 512 ≤ (i 0).val ∧ (i 0).val < (i 0).val / 512 * 512 + 512; omega
    | ⟨1, _⟩ => show win0_5.index t (1 : Fin 2) * 1024 ≤ (i 1).val ∧ (i 1).val < win0_5.index t (1 : Fin 2) * 1024 + 1024
                rw [e1]; omega

/-! ## The host lines around the region -/

/-- Before the region the input is reshaped to 16384 × 1024, -/
theorem X_eq (c : Dev nD) : X m c = shapeCast S16384x1024 (m ((c : Thread nD τ).loc main_arg0)) shapeCasts_S32x512x1024_S16384x1024 := by
  show StableHlo.after (List.flatten [hostOps0]) (fun b => m (c, b)) (Proc.devRef .tc main_v0) = _
  simp only [hostOps0, List.flatten_cons, List.flatten_nil, List.append_nil]
  after_results
  rfl
/-- the weight is transposed, -/
theorem Wt_eq (c : Dev nD) : Wt m c = transpose S1024x1024 [1, 0] (m ((c : Thread nD τ).loc main_arg1)) transposes_S1024x1024_S1024x1024_1_0 := by
  show StableHlo.after (List.flatten [hostOps0]) (fun b => m (c, b)) (Proc.devRef .tc main_v4) = _
  simp only [hostOps0, List.flatten_cons, List.flatten_nil, List.append_nil]
  after_results
/-- and the bias and the two affine vectors become rows. -/
theorem Bias_eq (c : Dev nD) : Bias m c = shapeCast S1x1024 (m ((c : Thread nD τ).loc main_arg2)) shapeCasts_S1024_S1x1024 := by
  show StableHlo.after (List.flatten [hostOps0]) (fun b => m (c, b)) (Proc.devRef .tc main_v1) = _
  simp only [hostOps0, List.flatten_cons, List.flatten_nil, List.append_nil]
  after_results
  rfl
theorem Gam_eq (c : Dev nD) : Gam m c = shapeCast S1x1024 (m ((c : Thread nD τ).loc main_arg3)) shapeCasts_S1024_S1x1024 := by
  show StableHlo.after (List.flatten [hostOps0]) (fun b => m (c, b)) (Proc.devRef .tc main_v2) = _
  simp only [hostOps0, List.flatten_cons, List.flatten_nil, List.append_nil]
  after_results
  rfl
theorem Bet_eq (c : Dev nD) : Bet m c = shapeCast S1x1024 (m ((c : Thread nD τ).loc main_arg4)) shapeCasts_S1024_S1x1024 := by
  show StableHlo.after (List.flatten [hostOps0]) (fun b => m (c, b)) (Proc.devRef .tc main_v3) = _
  simp only [hostOps0, List.flatten_cons, List.flatten_nil, List.append_nil]
  after_results
  rfl

/-- The program's result as a function of five argument arrays: reshape and transpose, the body tile by tile,
    reshape back. -/
def result (a0 : Vec F S32x512x1024 .f32) (a1 : Vec F S1024x1024 .f32) (a2 a3 a4 : Vec F S1024 .f32) : Vec F S32x512x1024 .f32 :=
  shapeCast S32x512x1024
    (byRowTiles (fun x => k0_pay1 x
        (transpose S1024x1024 [1, 0] a1 transposes_S1024x1024_S1024x1024_1_0)
        (shapeCast S1x1024 a2 shapeCasts_S1024_S1x1024) (shapeCast S1x1024 a3 shapeCasts_S1024_S1x1024)
        (shapeCast S1x1024 a4 shapeCasts_S1024_S1x1024))
      (shapeCast S16384x1024 a0 shapeCasts_S32x512x1024_S16384x1024) : Vec F S16384x1024 .f32)
    shapeCasts_S16384x1024_S32x512x1024

/-- After the region the one host line reshapes the output array; so the result buffer ends at `result` of the arguments. -/
theorem tail_eq (c : Dev nD) :
    Pipeline.afterTail₀ cfgs (dats m) 0 (V0 m) [hostOps1] c main_v6
      = result (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v6) = _
  after_results
  have hA : Pipeline.withArrays spec0 c (V0 m c) (fun w => (dats m 0 c).arrAt w cfg0.N) (Proc.devRef .tc (Pipeline.arrRef spec0 5))
      = outArr m c :=
    (Pipeline.withArrays_arr spec0 launch0.win.arr_inj c _ _ 5).trans (final m c)
  have hO : outArr m c = (byRowTiles (fun x => k0_pay1 x
        (transpose S1024x1024 [1, 0] (m ((c : Thread nD τ).loc main_arg1)) transposes_S1024x1024_S1024x1024_1_0)
        (shapeCast S1x1024 (m ((c : Thread nD τ).loc main_arg2)) shapeCasts_S1024_S1x1024)
        (shapeCast S1x1024 (m ((c : Thread nD τ).loc main_arg3)) shapeCasts_S1024_S1x1024)
        (shapeCast S1x1024 (m ((c : Thread nD τ).loc main_arg4)) shapeCasts_S1024_S1x1024))
      (shapeCast S16384x1024 (m ((c : Thread nD τ).loc main_arg0)) shapeCasts_S32x512x1024_S16384x1024) : Vec F S16384x1024 .f32) := by
    show byRowTiles (fun x => k0_pay1 x (Wt m c) (Bias m c) (Gam m c) (Bet m c)) (X m c) = _
    rw [X_eq, Wt_eq, Bias_eq, Gam_eq, Bet_eq]
  exact congrArg (fun A : Vec F S16384x1024 .f32 => shapeCast S32x512x1024 A shapeCasts_S16384x1024_S32x512x1024) (hA.trans hO)

/-- The run, read: the result buffer at `result` of the argument arrays, the arguments unchanged. -/
theorem run : θ_run defs (onTc (τ := τ) (main (F := F))) ⟨m, fun _ => 0, ρ⟩ fun r => ∀ c : Dev nD,
      r.2.mem ((c.tc : Thread nD τ).loc main_v6)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Hand

end
-- ==== Proof.TileLaw.lean ====
/-
  The two bodies on one tile.  Each forms a 512 × 1024 tile `z` and normalises it over its lanes:
  with `mean = (Σ_l z[r,l]) / 1024` and `var = max((Σ_l z[r,l]²) / 1024 − mean², 0)`, the result at `(r, l)` is
  `z[r,l] · s + (β[l] − mean · s)` where `s = rsqrt(var + ε) · γ[l]` — the same operations with the same constants
  on both sides (`normTile`).  They differ only in how `z` is summed: the kernel adds the residual tile to the
  matrix product first and the bias row second, the reference the bias row first; and the kernel rounds both
  factors of the product to a narrower format, which over the extended reals is the identity.  Addition of
  extended reals is commutative and associative, so the two tiles `z` are equal entry by entry.
-/
import proofs.«123937_g2000002448584903_pallasbulk_881_1_alg».proof.Proof.Gen.KernelIdeal.Skeleton
import proofs.«123937_g2000002448584903_pallasbulk_881_1_alg».proof.Proof.Gen.ReferenceIdeal.Skeleton
import Idealize.ShloMosaic.Lib.ValueIdx

set_option maxRecDepth 65536

noncomputable section

namespace Cert.TileLaw

open Idealize.ShloMosaic Idealize.ShloMosaic.ValueIdx
open Cert.ReferenceIdeal Cert.ReferenceIdeal.Gen

/-- Lane-wise normalisation of a tile, then the affine rows: what both bodies do to their summed tile. -/
def normTile (z : FVec Ideal S512x1024 .f32) (g β : FVec Ideal S1x1024 .f32) : FVec Ideal S512x1024 .f32 :=
  have inv : FVec Ideal S512x1 .f32 := broadcast S512x1 (Scalar.ofBits .f32 0x3A800000#32 : Ideal .f32)
  have mean : FVec Ideal S512x1 .f32 :=
    mulf (shapeCast S512x1 (multiReduction .add [1] S512 z 0x00000000#32 reduces_S512x1024_S512 (.inl rfl) rfl) shapeCasts_S512_S512x1) inv
  have ex2 : FVec Ideal S512x1 .f32 :=
    mulf (shapeCast S512x1 (multiReduction .add [1] S512 (mulf z z) 0x00000000#32 reduces_S512x1024_S512 (.inl rfl) rfl) shapeCasts_S512_S512x1) inv
  have var : FVec Ideal S512x1 .f32 :=
    maximumf (subf ex2 (mulf mean mean)) (broadcast S512x1 (Scalar.ofBits .f32 0x00000000#32 : Ideal .f32))
  have rstd : FVec Ideal S512x1 .f32 := rsqrt (addf var (broadcast S512x1 (Scalar.ofBits .f32 0x3727C5AC#32 : Ideal .f32)))
  have scale : FVec Ideal S512x1024 .f32 :=
    mulf (broadcastTo S512x1024 rstd broadcasts_S512x1_S512x1024)
      (broadcastTo S512x1024 (shapeCast S1x1024 g shapeCasts_S1x1024_S1x1024) broadcasts_S1x1024_S512x1024)
  have shift : FVec Ideal S512x1024 .f32 :=
    subf (broadcastTo S512x1024 (shapeCast S1x1024 β shapeCasts_S1x1024_S1x1024) broadcasts_S1x1024_S512x1024)
      (mulf (broadcastTo S512x1024 mean broadcasts_S512x1_S512x1024) scale)
  addf (mulf z scale) shift

/-- The reference's summed tile: (product + bias row) + residual tile. -/
def sumRef (x : FVec Ideal S512x1024 .f32) (w : FVec Ideal S1024x1024 .f32) (b : FVec Ideal S1x1024 .f32) : FVec Ideal S512x1024 .f32 :=
  addf (addf (matmul dot_S512x1024_S1024x1024_S512x1024_1_0_0_1_n_n none
        (shapeCast S512x1024 x shapeCasts_S512x1024_S512x1024) (shapeCast S1024x1024 w shapeCasts_S1024x1024_S1024x1024)
        (constant S512x1024 .f32 0x00000000#32))
      (broadcastTo S512x1024 (shapeCast S1x1024 b shapeCasts_S1x1024_S1x1024) broadcasts_S1x1024_S512x1024))
    (shapeCast S512x1024 x shapeCasts_S512x1024_S512x1024)

/-- The kernel's summed tile: (product of the rounded factors + residual tile) + bias row. -/
def sumKer (x : FVec Ideal Cert.KernelIdeal.S512x1024 .f32) (w : FVec Ideal Cert.KernelIdeal.S1024x1024 .bf16)
    (b : FVec Ideal Cert.KernelIdeal.S1x1024 .f32) : FVec Ideal Cert.KernelIdeal.S512x1024 .f32 :=
  addf (addf (matmul Cert.KernelIdeal.dot_S512x1024_S1024x1024_S512x1024_1_0_0_1_n_n none
        (truncf .bf16 (shapeCast Cert.KernelIdeal.S512x1024 x Cert.KernelIdeal.Gen.shapeCasts_S512x1024_S512x1024) Cert.KernelIdeal.Gen.bitsLt_bf16_f32)
        (shapeCast Cert.KernelIdeal.S1024x1024 w Cert.KernelIdeal.Gen.shapeCasts_S1024x1024_S1024x1024)
        (constant Cert.KernelIdeal.S512x1024 .f32 0x00000000#32))
      (shapeCast Cert.KernelIdeal.S512x1024 x Cert.KernelIdeal.Gen.shapeCasts_S512x1024_S512x1024))
    (broadcastTo Cert.KernelIdeal.S512x1024 (shapeCast Cert.KernelIdeal.S1x1024 b Cert.KernelIdeal.Gen.shapeCasts_S1x1024_S1x1024) Cert.KernelIdeal.Gen.broadcasts_S1x1024_S512x1024)

/-- The reference's payload is the normalisation of its summed tile. -/
theorem payRef_eq (x : FVec Ideal S512x1024 .f32) (w : FVec Ideal S1024x1024 .f32) (b g β : FVec Ideal S1x1024 .f32) :
    Cert.ReferenceIdeal.Gen.k0_pay1 (F := Ideal) x w b g β = normTile (sumRef x w b) g β := rfl

/-- The kernel's payload is the normalisation of its summed tile. -/
theorem payKer_eq (x : FVec Ideal Cert.KernelIdeal.S512x1024 .f32) (w : FVec Ideal Cert.KernelIdeal.S1024x1024 .bf16)
    (b g β : FVec Ideal Cert.KernelIdeal.S1x1024 .f32) :
    Cert.KernelIdeal.Gen.k0_pay1 (F := Ideal) x w b g β = normTile (sumKer x w b) g β := rfl

/-- The two summed tiles agree: rounding is the identity on extended reals, and `(p + x) + b = (p + b) + x`. -/
theorem sum_eq (x : FVec Ideal S512x1024 .f32) (w : FVec Ideal S1024x1024 .f32) (b : FVec Ideal S1x1024 .f32) :
    sumKer x (truncf .bf16 w Cert.KernelIdeal.Gen.bitsLt_bf16_f32 : FVec Ideal S1024x1024 .bf16) b = sumRef x w b := by
  funext i
  unfold sumKer sumRef
  simp only [addf_apply]
  exact add_right_comm _ _ _

/-- So the two payloads agree on every tile, the kernel's weight being the reference's, rounded. -/
theorem pay_eq (x : FVec Ideal S512x1024 .f32) (w : FVec Ideal S1024x1024 .f32) (b g β : FVec Ideal S1x1024 .f32) :
    Cert.KernelIdeal.Gen.k0_pay1 (F := Ideal) x (truncf .bf16 w Cert.KernelIdeal.Gen.bitsLt_bf16_f32 : FVec Ideal S1024x1024 .bf16) b g β
      = Cert.ReferenceIdeal.Gen.k0_pay1 (F := Ideal) x w b g β := by
  rw [payKer_eq, payRef_eq, sum_eq]

end Cert.TileLaw

end
-- ==== Proof.lean ====
/-
  `Cert.Claim` for the fused linear + residual + lane normalisation kernel against its reference.

  Both programs reshape the input to 16384 × 1024, run ONE region over its 32 tiles of 512 rows, and reshape the
  region's output array back to 32 × 512 × 1024.  On a tile `x` each body forms `z = x · Wᵀ + x + b` and stores the
  lane normalisation of `z` with the affine rows `γ`, `β`.  The kernel rounds both factors of the product to a
  narrower float format (the identity on extended reals) and adds the residual before the bias where the
  reference adds the bias first; extended-real addition is commutative and associative, so the two tiles `z` agree
  entry by entry (Proof/TileLaw.lean).  Each program's output array is its body's function applied tile by tile
  (Proof/KernelRun.lean, Proof/ReferenceRun.lean over Proof/RowTiles.lean), hence the two results are equal.
  No finiteness is used.  The three frames are the generated ones; the idealisation rewrote nothing.
-/
import proofs.«123937_g2000002448584903_pallasbulk_881_1_alg».proof.Defs
import proofs.«123937_g2000002448584903_pallasbulk_881_1_alg».proof.Proof.Gen.Kernel
import proofs.«123937_g2000002448584903_pallasbulk_881_1_alg».proof.Proof.Gen.Kernel.Skeleton
import proofs.«123937_g2000002448584903_pallasbulk_881_1_alg».proof.Proof.Gen.Kernel.Launch
import proofs.«123937_g2000002448584903_pallasbulk_881_1_alg».proof.Proof.Gen.Kernel.Points
import proofs.«123937_g2000002448584903_pallasbulk_881_1_alg».proof.Proof.Gen.Kernel.Frame
import proofs.«123937_g2000002448584903_pallasbulk_881_1_alg».proof.Proof.Gen.KernelIdeal
import proofs.«123937_g2000002448584903_pallasbulk_881_1_alg».proof.Proof.Gen.KernelIdeal.Skeleton
import proofs.«123937_g2000002448584903_pallasbulk_881_1_alg».proof.Proof.Gen.KernelIdeal.Launch
import proofs.«123937_g2000002448584903_pallasbulk_881_1_alg».proof.Proof.Gen.KernelIdeal.Points
import proofs.«123937_g2000002448584903_pallasbulk_881_1_alg».proof.Proof.Gen.KernelIdeal.Frame
import proofs.«123937_g2000002448584903_pallasbulk_881_1_alg».proof.Proof.Gen.ReferenceIdeal
import proofs.«123937_g2000002448584903_pallasbulk_881_1_alg».proof.Proof.Gen.ReferenceIdeal.Skeleton
import proofs.«123937_g2000002448584903_pallasbulk_881_1_alg».proof.Proof.Gen.ReferenceIdeal.Launch
import proofs.«123937_g2000002448584903_pallasbulk_881_1_alg».proof.Proof.Gen.ReferenceIdeal.Points
import proofs.«123937_g2000002448584903_pallasbulk_881_1_alg».proof.Proof.Gen.ReferenceIdeal.Frame
import proofs.«123937_g2000002448584903_pallasbulk_881_1_alg».proof.Proof.Gen.Pre_finite_inputs
import proofs.«123937_g2000002448584903_pallasbulk_881_1_alg».proof.Proof.KernelRun
import proofs.«123937_g2000002448584903_pallasbulk_881_1_alg».proof.Proof.ReferenceRun
import proofs.«123937_g2000002448584903_pallasbulk_881_1_alg».proof.Proof.TileLaw
import Idealize.ShloMosaic.Adequacy
import Idealize.ShloMosaic.Init

noncomputable section

namespace Cert.Proof

open Idealize.ShloMosaic Idealize.SL.Sem Cert.RowTiles

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealisation's ledger is empty. -/
theorem preserves : Cert.preserves_Kernel_KernelIdeal := trivial

/-- On every tile the two bodies agree, each fed what its own host lines prepare from the same arguments: the
    transposed weight (rounded, for the kernel) and the bias and affine vectors as rows. -/
theorem tile_eq (a1 : FVec Ideal Cert.KernelIdeal.S1024x1024 .f32) (a2 a3 a4 : FVec Ideal Cert.KernelIdeal.S1024 .f32)
    (x : FVec Ideal Cert.KernelIdeal.S512x1024 .f32) :
    Cert.KernelIdeal.Gen.k0_pay1 (F := Ideal) x
        (truncf .bf16 (transpose Cert.KernelIdeal.S1024x1024 [1, 0] a1 Cert.KernelIdeal.Gen.transposes_S1024x1024_S1024x1024_1_0) Cert.KernelIdeal.Gen.bitsLt_bf16_f32)
        (shapeCast Cert.KernelIdeal.S1x1024 a2 Cert.KernelIdeal.Gen.shapeCasts_S1024_S1x1024)
        (shapeCast Cert.KernelIdeal.S1x1024 a3 Cert.KernelIdeal.Gen.shapeCasts_S1024_S1x1024)
        (shapeCast Cert.KernelIdeal.S1x1024 a4 Cert.KernelIdeal.Gen.shapeCasts_S1024_S1x1024)
      = Cert.ReferenceIdeal.Gen.k0_pay1 (F := Ideal) x
        (transpose Cert.ReferenceIdeal.S1024x1024 [1, 0] a1 Cert.ReferenceIdeal.Gen.transposes_S1024x1024_S1024x1024_1_0)
        (shapeCast Cert.ReferenceIdeal.S1x1024 a2 Cert.ReferenceIdeal.Gen.shapeCasts_S1024_S1x1024)
        (shapeCast Cert.ReferenceIdeal.S1x1024 a3 Cert.ReferenceIdeal.Gen.shapeCasts_S1024_S1x1024)
        (shapeCast Cert.ReferenceIdeal.S1x1024 a4 Cert.ReferenceIdeal.Gen.shapeCasts_S1024_S1x1024) :=
  Cert.TileLaw.pay_eq x
      (transpose Cert.ReferenceIdeal.S1024x1024 [1, 0] a1 Cert.ReferenceIdeal.Gen.transposes_S1024x1024_S1024x1024_1_0)
      (shapeCast Cert.ReferenceIdeal.S1x1024 a2 Cert.ReferenceIdeal.Gen.shapeCasts_S1024_S1x1024)
      (shapeCast Cert.ReferenceIdeal.S1x1024 a3 Cert.ReferenceIdeal.Gen.shapeCasts_S1024_S1x1024)
      (shapeCast Cert.ReferenceIdeal.S1x1024 a4 Cert.ReferenceIdeal.Gen.shapeCasts_S1024_S1x1024)

/-- The two programs' results are one function of the five argument arrays: they apply to every row tile of the
    same reshaped input two tile functions that agree, and reshape back. -/
theorem result_eq (a0 : FVec Ideal Cert.KernelIdeal.S32x512x1024 .f32) (a1 : FVec Ideal Cert.KernelIdeal.S1024x1024 .f32)
    (a2 a3 a4 : FVec Ideal Cert.KernelIdeal.S1024 .f32) :
    Cert.ReferenceIdeal.Hand.result (F := Ideal) a0 a1 a2 a3 a4 = Cert.KernelIdeal.Hand.result (F := Ideal) a0 a1 a2 a3 a4 := by
  unfold Cert.ReferenceIdeal.Hand.result Cert.KernelIdeal.Hand.result
  exact congrArg (fun f : (Tile.Idx → Ideal .f32) → (Tile.Idx → Ideal .f32) =>
      shapeCast Cert.KernelIdeal.S32x512x1024
        (byRowTiles f (shapeCast Cert.KernelIdeal.S16384x1024 a0 Cert.KernelIdeal.Gen.shapeCasts_S32x512x1024_S16384x1024) : FVec Ideal Cert.KernelIdeal.S16384x1024 .f32)
        Cert.KernelIdeal.Gen.shapeCasts_S16384x1024_S32x512x1024)
    (funext fun x => (tile_eq a1 a2 a3 a4 x).symm)

/-- Run from memories that agree on the arguments, both programs end with their result buffer at the same array. -/
theorem algebraic : Cert.algebraic_KernelIdeal_ReferenceIdeal := by
  intro m ρ m' ρ' _ hagree
  refine ⟨fun c => Cert.KernelIdeal.Hand.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.run (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2]
  exact result_eq _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
